-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S262144x32 : Shape := ⟨2, ![262144, 32]⟩
abbrev S262144 : Shape := ⟨1, ![262144]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S262144x32 32) (main_arg2 : FVec F S262144 .f32) (main_arg3 : FVec F S262144 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S262144 .f32 := Host.absf main_arg3
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S262144x32 : Shape := ⟨2, ![262144, 32]⟩
abbrev S262144 : Shape := ⟨1, ![262144]⟩
abbrev S4096 : Shape := ⟨1, ![4096]⟩
abbrev S_ : Shape := ⟨0, ![]⟩
abbrev S262144x32x1 : Shape := ⟨3, ![262144, 32, 1]⟩
abbrev S262144x32x2 : Shape := ⟨3, ![262144, 32, 2]⟩
abbrev S262144x64 : Shape := ⟨2, ![262144, 64]⟩
abbrev S262144x1 : Shape := ⟨2, ![262144, 1]⟩
abbrev S4096x4096 : Shape := ⟨2, ![4096, 4096]⟩
abbrev S8192x4096 : Shape := ⟨2, ![8192, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 33
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S262144x32, .i32⟩
  | .hbm, ⟨2, _⟩ => ⟨S262144, .f32⟩
  | .hbm, ⟨3, _⟩ => ⟨S262144, .f32⟩
  | .hbm, ⟨4, _⟩ => ⟨S4096, .f32⟩
  | .hbm, ⟨5, _⟩ => ⟨S_, .i32⟩
  | .hbm, ⟨6, _⟩ => ⟨S262144x32, .i32⟩
  | .hbm, ⟨7, _⟩ => ⟨S262144x32, .i32⟩
  | .hbm, ⟨8, _⟩ => ⟨S262144x32, .f32⟩
  | .hbm, ⟨9, _⟩ => ⟨S_, .i32⟩
  | .hbm, ⟨10, _⟩ => ⟨S262144x32, .i32⟩
  | .hbm, ⟨11, _⟩ => ⟨S262144x32, .i32⟩
  | .hbm, ⟨12, _⟩ => ⟨S_, .i32⟩
  | .hbm, ⟨13, _⟩ => ⟨S262144x32, .i32⟩
  | .hbm, ⟨14, _⟩ => ⟨S262144x32, .i32⟩
  | .hbm, ⟨15, _⟩ => ⟨S262144x32, .f32⟩
  | .hbm, ⟨16, _⟩ => ⟨S262144x32x1, .f32⟩
  | .hbm, ⟨17, _⟩ => ⟨S262144x32x1, .f32⟩
  | .hbm, ⟨18, _⟩ => ⟨S262144x32x2, .f32⟩
  | .hbm, ⟨19, _⟩ => ⟨S262144x64, .f32⟩
  | .hbm, ⟨20, _⟩ => ⟨S262144x1, .f32⟩
  | .hbm, ⟨21, _⟩ => ⟨S262144x64, .f32⟩
  | .hbm, ⟨22, _⟩ => ⟨S262144x64, .f32⟩
  | .hbm, ⟨23, _⟩ => ⟨S262144x1, .f32⟩
  | .hbm, ⟨24, _⟩ => ⟨S262144x64, .f32⟩
  | .hbm, ⟨25, _⟩ => ⟨S262144x64, .f32⟩
  | .hbm, ⟨26, _⟩ => ⟨S262144x64, .bf16⟩
  | .hbm, ⟨27, _⟩ => ⟨S4096x4096, .bf16⟩
  | .hbm, ⟨28, _⟩ => ⟨S8192x4096, .f32⟩
  | .hbm, ⟨29, _⟩ => ⟨S8192x4096, .bf16⟩
  | .hbm, ⟨30, _⟩ => ⟨S1x4096, .f32⟩
  | .hbm, ⟨31, _⟩ => ⟨S8192x4096, .f32⟩
  | .hbm, ⟨32, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S262144x32 : S_.BroadcastsInDim S262144x32 (![] : Fin 0 → Fin S262144x32.rank)
  bcast_S262144x32_S262144x32x1_0_1 : S262144x32.BroadcastsInDim S262144x32x1 (![0, 1] : Fin 2 → Fin S262144x32x1.rank)
  concatenates_S262144x32x1_S262144x32x1_S262144x32x2_d2 : Shape.Concatenates [S262144x32x1, S262144x32x1] S262144x32x2 2
  shapeCasts_S262144x32x2_S262144x64 : S262144x32x2.ShapeCasts S262144x64
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  bitsLt_bf16_f32 : FTy.bits .bf16 < FTy.bits .f32
  shapeCasts_S262144x64_S4096x4096 : S262144x64.ShapeCasts S4096x4096
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v21) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S262144x32 : Shape := ⟨2, ![262144, 32]⟩
abbrev S262144 : Shape := ⟨1, ![262144]⟩
abbrev S4096 : Shape := ⟨1, ![4096]⟩
abbrev S_ : Shape := ⟨0, ![]⟩
abbrev S262144x32x1 : Shape := ⟨3, ![262144, 32, 1]⟩
abbrev S262144x32x2 : Shape := ⟨3, ![262144, 32, 2]⟩
abbrev S262144x64 : Shape := ⟨2, ![262144, 64]⟩
abbrev S262144x1 : Shape := ⟨2, ![262144, 1]⟩
abbrev S4096x4096 : Shape := ⟨2, ![4096, 4096]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S262144x32, .i32⟩
  | .hbm, ⟨2, _⟩ => ⟨S262144, .f32⟩
  | .hbm, ⟨3, _⟩ => ⟨S262144, .f32⟩
  | .hbm, ⟨4, _⟩ => ⟨S4096, .f32⟩
  | .hbm, ⟨5, _⟩ => ⟨S_, .i32⟩
  | .hbm, ⟨6, _⟩ => ⟨S262144x32, .i32⟩
  | .hbm, ⟨7, _⟩ => ⟨S262144x32, .i32⟩
  | .hbm, ⟨8, _⟩ => ⟨S262144x32, .f32⟩
  | .hbm, ⟨9, _⟩ => ⟨S_, .i32⟩
  | .hbm, ⟨10, _⟩ => ⟨S262144x32, .i32⟩
  | .hbm, ⟨11, _⟩ => ⟨S262144x32, .i32⟩
  | .hbm, ⟨12, _⟩ => ⟨S_, .i32⟩
  | .hbm, ⟨13, _⟩ => ⟨S262144x32, .i32⟩
  | .hbm, ⟨14, _⟩ => ⟨S262144x32, .i32⟩
  | .hbm, ⟨15, _⟩ => ⟨S262144x32, .f32⟩
  | .hbm, ⟨16, _⟩ => ⟨S262144x32x1, .f32⟩
  | .hbm, ⟨17, _⟩ => ⟨S262144x32x1, .f32⟩
  | .hbm, ⟨18, _⟩ => ⟨S262144x32x2, .f32⟩
  | .hbm, ⟨19, _⟩ => ⟨S262144x64, .f32⟩
  | .hbm, ⟨20, _⟩ => ⟨S262144x1, .f32⟩
  | .hbm, ⟨21, _⟩ => ⟨S262144x64, .f32⟩
  | .hbm, ⟨22, _⟩ => ⟨S262144x64, .f32⟩
  | .hbm, ⟨23, _⟩ => ⟨S262144x1, .f32⟩
  | .hbm, ⟨24, _⟩ => ⟨S262144x64, .f32⟩
  | .hbm, ⟨25, _⟩ => ⟨S262144x64, .f32⟩
  | .hbm, ⟨26, _⟩ => ⟨S4096x4096, .f32⟩
  | .hbm, ⟨27, _⟩ => ⟨S4x2048x4096, .f32⟩
  | .hbm, ⟨28, _⟩ => ⟨S1x1x4096, .f32⟩
  | .hbm, ⟨29, _⟩ => ⟨S4x2048x4096, .f32⟩
  | .hbm, ⟨30, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S262144x32 : S_.BroadcastsInDim S262144x32 (![] : Fin 0 → Fin S262144x32.rank)
  bcast_S262144x32_S262144x32x1_0_1 : S262144x32.BroadcastsInDim S262144x32x1 (![0, 1] : Fin 2 → Fin S262144x32x1.rank)
  concatenates_S262144x32x1_S262144x32x1_S262144x32x2_d2 : Shape.Concatenates [S262144x32x1, S262144x32x1] S262144x32x2 2
  shapeCasts_S262144x32x2_S262144x64 : S262144x32x2.ShapeCasts S262144x64
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, case by case, as values.

  The body keeps a [1024, 2048] accumulator in a scratch buffer that lives across grid points.  At every point it
  adds the product of the point's two input blocks to the accumulator; at the first point of a contraction run
  (`k = 0`) it first overwrites the accumulator with zeros; at the last point (`k = 7`) it also stores the
  accumulator plus the bias row into the output block.  Every load and store goes through the whole buffer, so a
  stored value is read back exactly, and the accumulator after the body is ONE pure term of what was there before:

    k = 0      :  acc' = (0-block)  ⊞ x·wᵀ           (`scratch_first`)
    0 < k < 7  :  acc' = acc        ⊞ x·wᵀ           (`scratch_mid`)
    k = 7      :  acc' = acc        ⊞ x·wᵀ           (`scratch_last`),   out = acc' + bias   (`out_last`)

  where `⊞` is the body's own "load, multiply into a zero accumulator, add, store" term (`k0_pay2`), `k0_pay1`
  the zero block and `k0_pay3` the bias addition.  Stated at any float instance.
-/
import proofs.«425492_j50079318671750_2_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem Idealize.ShloMosaic.Tactic
open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- First point of a contraction run: the accumulator is zeroed, read back, and the block product added. -/
theorem scratch_first (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x512 .bf16) (x1 : Vec F S2048x512 .bf16) (x2 : Vec F S1x2048 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, harg5.read_unread, harg7.read_unread,
    View.ld_unit_zero (S := S1024x512) hz, View.ld_unit_zero (S := S2048x512) hz, View.ld_unit_zero (S := S1x2048) hz,
    View.ld_unit_zero (S := S1024x2048) hz]

/-- A middle point: the block product is added to what the point before left. -/
theorem scratch_mid (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x512 .bf16) (x1 : Vec F S2048x512 .bf16) (x2 : Vec F S1x2048 .f32) (xs0 : Vec F S1024x2048 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x2048) hz]
  simp only [View.readAt_eq_ld, harg3.read_unread, harg4.read_unread, harg5.read_unread, harg7.read_unread,
    View.ld_unit_zero (S := S1024x512) hz, View.ld_unit_zero (S := S2048x512) hz, View.ld_unit_zero (S := S1x2048) hz,
    View.ld_unit_zero (S := S1024x2048) hz]

/-- The last point of a run leaves the same in the accumulator … -/
theorem scratch_last (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .bf16) (x1 : Vec F S2048x512 .bf16) (x2 : Vec F S1x2048 .f32) (xs0 : Vec F S1024x2048 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x2048) hz]
  simp only [View.readAt_eq_ld, harg3.read_unread, harg4.read_unread, harg5.read_unread, harg7.read_unread,
    View.ld_unit_zero (S := S1024x512) hz, View.ld_unit_zero (S := S2048x512) hz, View.ld_unit_zero (S := S1x2048) hz,
    View.ld_unit_zero (S := S1024x2048) hz]

/-- … and stores it, with the bias row added to every row, into the output block. -/
theorem out_last (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .bf16) (x1 : Vec F S2048x512 .bf16) (x2 : Vec F S1x2048 .f32) (xs0 : Vec F S1024x2048 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x2048) hz, View.readCov_unit_zero (S := S1024x2048) _ hz]
  simp only [View.readAt_eq_ld, harg3.read_unread, harg4.read_unread, harg5.read_unread, harg7.read_unread,
    View.ld_unit_zero (S := S1024x512) hz, View.ld_unit_zero (S := S2048x512) hz, View.ld_unit_zero (S := S1x2048) hz,
    View.ld_unit_zero (S := S1024x2048) hz]

end Cert.KernelIdeal.Acc

end
-- ==== Proof.Payload.lean ====
/-
  The body's three pure terms read at one element, over the extended reals.

  With `acc` the [1024, 2048] accumulator, `x` the [1024, 512] block of the activations and `w` the [2048, 512]
  block of the weights (both contracted on their second axis: the product is `x · wᵀ`), at row `p` and column `q`:

    zero block        :  0
    accumulate        :  acc[p, q] + ∑ₖ x[p, k] · w[q, k]        (k over the 512 coordinates of the block)
    add the bias row  :  acc[p, q] + bias[0, q]

  The matrix unit multiplies into a zero accumulator, so its result is the bare sum; the casts between equal shapes
  are identities.
-/
import proofs.«425492_j50079318671750_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Acc

open Idealize.ShloMosaic Idealize.ShloMosaic.TcCoe Idealize.SL.Sem Idealize.ShloMosaic.ValueIdx
open Cert.KernelIdeal Cert.KernelIdeal.Gen

/-- The zero block is zero everywhere. -/
theorem zero_block_apply (j : S1024x2048.Idx) : k0_pay1 (F := Ideal) j = 0 := by
  unfold k0_pay1
  rw [shapeCast_self]
  show Ideal.ofBits .f32 0x00000000#32 = 0
  exact Ideal.ofBits_zero_f32

/-! The operand indices of the block product: the left operand is read at (row of the result, contraction
    coordinate), the right at (column of the result, contraction coordinate). -/

theorem lhs_blockdot_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_blockdot_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhs_blockdot_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_blockdot_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The block product into a zero accumulator, at (p, q): the sum over the block's contraction coordinates. -/
theorem blockdot_apply (x : FVec Ideal S1024x512 .bf16) (w : FVec Ideal S2048x512 .bf16) (p : Fin 1024) (q : Fin 2048) :
    matmul dot_S1024x512_S2048x512_S1024x2048_1_1_0_0_n_n none x w (constant S1024x2048 .f32 0x00000000#32) (ix2 p q)
      = ∑ k : Fin 512, x (ix2 p k) * w (ix2 q k) := by
  show FloatOps.matmul dot_S1024x512_S2048x512_S1024x2048_1_1_0_0_n_n none x w (constant S1024x2048 .f32 0x00000000#32) (ix2 p q) = _
  rw [Ideal.matmul_constant_zero_apply, ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 p q) ((ValueIdx.contrEquiv1 dot_S1024x512_S2048x512_S1024x2048_1_1_0_0_n_n 512 rfl rfl).symm k) = ix2 p k := funext fun a => Fin.ext (by
    match a with
    | ⟨0, _⟩ => exact lhs_blockdot_0 _ _
    | ⟨1, _⟩ => exact (lhs_blockdot_1 _ _).trans hk)
  have er : dot_S1024x512_S2048x512_S1024x2048_1_1_0_0_n_n.rhsIdx (ix2 p q) ((ValueIdx.contrEquiv1 dot_S1024x512_S2048x512_S1024x2048_1_1_0_0_n_n 512 rfl rfl).symm k) = ix2 q k := funext fun a => Fin.ext (by
    match a with
    | ⟨0, _⟩ => exact rhs_blockdot_0 _ _
    | ⟨1, _⟩ => exact (rhs_blockdot_1 _ _).trans hk)
  rw [el, er]

/-- One accumulation step at (p, q). -/
theorem accumulate_apply (x : Vec Ideal S1024x512 .bf16) (w : Vec Ideal S2048x512 .bf16) (acc : Vec Ideal S1024x2048 .f32)
    (p : Fin 1024) (q : Fin 2048) :
    k0_pay2 x w acc (ix2 p q) = acc (ix2 p q) + ∑ k : Fin 512, x (ix2 p k) * w (ix2 q k) := by
  unfold k0_pay2
  simp only [shapeCast_self]
  refine (addf_apply _ _ _).trans ?_
  exact congrArg (acc (ix2 p q) + ·) (blockdot_apply x w p q)

/-- The bias row added to every row, at (p, q). -/
theorem add_bias_apply (acc : Vec Ideal S1024x2048 .f32) (b : Vec Ideal S1x2048 .f32) (p : Fin 1024) (q : Fin 2048) :
    k0_pay3 acc b (ix2 p q) = acc (ix2 p q) + b (ix2 (0 : Fin 1) q) := by
  unfold k0_pay3
  simp only [shapeCast_self]
  refine (addf_apply _ _ _).trans ?_
  exact congrArg (acc (ix2 p q) + ·) (ValueIdx.broadcastTo_1b_ab_apply b broadcasts_S1x2048_S1024x2048 p q)

end Cert.KernelIdeal.Acc

end
-- ==== Proof.Spec.lean ====
/-
  The mathematics shared by both sides of the equivalence: a row of a matrix product `∑ₖ X[r,k] · W[n,k]` (both
  operands contracted on their LAST axis) split into consecutive stretches of the contraction axis.

  A rank-2 array is extended by zero outside its box (`ext2`), so that a partial product over the first `L`
  contraction coordinates is a sum over `Finset.range L` with no bound to carry (`partialDot`).  Over the extended
  reals addition is a commutative monoid (no subtraction, no distributivity is used), hence:
    · nothing summed is zero (`partialDot_zero`);
    · `L + B` coordinates are the first `L` and then a block of `B` (`partialDot_add`);
    · all `K` coordinates are the plain sum over `Fin K` (`partialDot_full`).
  These three are all the algebra the kernel's block-by-block accumulation needs against one whole contraction.
-/
import Idealize.ShloMosaic.PureOps.Ideal
import Idealize.ShloMosaic.Lib.ValueIdx
import Mathlib.Algebra.BigOperators.Intervals
import Mathlib.Algebra.BigOperators.Fin

noncomputable section

namespace QLinear

open Idealize.ShloMosaic Idealize.ShloMosaic.ValueIdx

/-- A rank-2 array of extended reals, read at natural coordinates: zero outside the box. -/
def ext2 {a b : ℕ} (X : (⟨2, ![a, b]⟩ : Shape).Idx → EReal) (r s : ℕ) : EReal :=
  if h : r < a ∧ s < b then X (ix2 ⟨r, h.1⟩ ⟨s, h.2⟩) else 0

/-- Inside the box the extension is the array. -/
theorem ext2_of_lt {a b : ℕ} (X : (⟨2, ![a, b]⟩ : Shape).Idx → EReal) {r s : ℕ} (hr : r < a) (hs : s < b) :
    ext2 X r s = X (ix2 ⟨r, hr⟩ ⟨s, hs⟩) := dif_pos ⟨hr, hs⟩

/-- The product row `r` of `X` against row `n` of `W`, over the first `L` contraction coordinates. -/
def partialDot {M N K : ℕ} (X : (⟨2, ![M, K]⟩ : Shape).Idx → EReal) (W : (⟨2, ![N, K]⟩ : Shape).Idx → EReal)
    (r n L : ℕ) : EReal :=
  ∑ s ∈ Finset.range L, ext2 X r s * ext2 W n s

theorem partialDot_zero {M N K : ℕ} (X : (⟨2, ![M, K]⟩ : Shape).Idx → EReal) (W : (⟨2, ![N, K]⟩ : Shape).Idx → EReal)
    (r n : ℕ) : partialDot X W r n 0 = 0 := Finset.sum_range_zero _

/-- One more block of `B` contraction coordinates after the first `L`. -/
theorem partialDot_add {M N K : ℕ} (X : (⟨2, ![M, K]⟩ : Shape).Idx → EReal) (W : (⟨2, ![N, K]⟩ : Shape).Idx → EReal)
    (r n L B : ℕ) :
    partialDot X W r n (L + B) = partialDot X W r n L + ∑ k : Fin B, ext2 X r (L + k.val) * ext2 W n (L + k.val) := by
  unfold partialDot
  rw [Finset.sum_range_add]
  exact congrArg _ (Finset.sum_range fun x => ext2 X r (L + x) * ext2 W n (L + x))

/-- All `K` contraction coordinates: the plain sum over the axis. -/
theorem partialDot_full {M N K : ℕ} (X : (⟨2, ![M, K]⟩ : Shape).Idx → EReal) (W : (⟨2, ![N, K]⟩ : Shape).Idx → EReal)
    (r : Fin M) (n : Fin N) :
    partialDot X W r.val n.val K = ∑ k : Fin K, X (ix2 r k) * W (ix2 n k) := by
  unfold partialDot
  rw [Finset.sum_range]
  refine Finset.sum_congr rfl fun k _ => ?_
  rw [ext2_of_lt X r.isLt k.isLt, ext2_of_lt W n.isLt k.isLt]

/-- `X · Wᵀ + b` as one whole-array function: row `r`, column `n` is the full contraction of row `r` of `X` with row `n`
    of `W`, plus entry `n` of the one-row bias. -/
def affine {M N K : ℕ} (X : (⟨2, ![M, K]⟩ : Shape).Idx → EReal) (W : (⟨2, ![N, K]⟩ : Shape).Idx → EReal)
    (b : (⟨2, ![1, N]⟩ : Shape).Idx → EReal) : (⟨2, ![M, N]⟩ : Shape).Idx → EReal :=
  fun j => partialDot X W (j 0).val (j 1).val K + b (ix2 (0 : Fin 1) (j 1))

/-- At natural coordinates `(r, n)` that an index `j` has. -/
theorem affine_of_val {M N K : ℕ} (X : (⟨2, ![M, K]⟩ : Shape).Idx → EReal) (W : (⟨2, ![N, K]⟩ : Shape).Idx → EReal)
    (b : (⟨2, ![1, N]⟩ : Shape).Idx → EReal) (j : (⟨2, ![M, N]⟩ : Shape).Idx) (r n : ℕ) (hn : n < N)
    (h0 : (j 0).val = r) (h1 : (j 1).val = n) :
    affine X W b j = partialDot X W r n K + b (ix2 (0 : Fin 1) ⟨n, hn⟩) := by
  subst h0; subst h1; rfl

/-- As the textbook sum. -/
theorem affine_apply {M N K : ℕ} (X : (⟨2, ![M, K]⟩ : Shape).Idx → EReal) (W : (⟨2, ![N, K]⟩ : Shape).Idx → EReal)
    (b : (⟨2, ![1, N]⟩ : Shape).Idx → EReal) (r : Fin M) (n : Fin N) :
    affine X W b (ix2 r n) = ∑ k : Fin K, X (ix2 r k) * W (ix2 n k) + b (ix2 (0 : Fin 1) n) := by
  show partialDot X W r.val n.val K + b (ix2 (0 : Fin 1) n) = _
  rw [partialDot_full]

end QLinear

end
-- ==== Proof.Blocks.lean ====
/-
  The grid and the blocks its points read.

  The 128 grid points are numbered row-major over (i, j, k) ∈ 8 × 2 × 8 with k fastest: point `t` has
  `i = t / 16`, `j = (t / 8) % 2`, `k = t % 8`.  At point `t` the body reads
    · rows `1024·i …` and contraction coordinates `512·k …` of the [8192, 4096] activations,
    · rows `2048·j …` and contraction coordinates `512·k …` of the [4096, 4096] weights,
    · columns `2048·j …` of the [1, 4096] bias row,
  and (at `k = 7`) writes rows `1024·i …`, columns `2048·j …` of the [8192, 4096] result.  A block's element sits in
  its array, on each axis, at block index × block size + its own coordinate.  The arrays are the ones the kernel call
  finds, i.e. what the host operations before it computed; this module does not look inside them.
-/
import proofs.«425492_j50079318671750_2_alg».proof.Proof.Gen.KernelIdeal.Frame.Runs
import proofs.«425492_j50079318671750_2_alg».proof.Proof.Spec
import Idealize.ShloMosaic.Lib.Pipeline.Value

noncomputable section

namespace Cert.KernelIdeal.Acc

open Idealize.ShloMosaic Idealize.ShloMosaic.TcCoe Idealize.SL.Sem Idealize.ShloMosaic.ValueIdx
open Cert.KernelIdeal Cert.KernelIdeal.Gen QLinear

variable (m : (ℓ : Loc nD τ sig) → Buf (Elt Ideal) ℓ)

/-- The activations, the weights and the bias row as the kernel call finds them. -/
abbrev actArr (c : Dev nD) : S8192x4096.Idx → EReal := V m c main_v21
abbrev wgtArr (c : Dev nD) : S4096x4096.Idx → EReal := V m c main_v19
abbrev biasArr (c : Dev nD) : S1x4096.Idx → EReal := V m c main_v22

/-- The three input blocks of point `t`. -/
abbrev actBlk (c : Dev nD) (t : Fin cfg0.N) : Vec Ideal S1024x512 .bf16 := iblk m c 0 t
abbrev wgtBlk (c : Dev nD) (t : Fin cfg0.N) : Vec Ideal S2048x512 .bf16 := iblk m c 1 t
abbrev biasBlk (c : Dev nD) (t : Fin cfg0.N) : Vec Ideal S1x2048 .f32 := iblk m c 2 t

theorem point_lt (t : Fin cfg0.N) : t.val < 128 := lt_of_lt_of_eq t.isLt (show cfg0.N = 128 from N_0)

/-- Which block each window is on at point `t`: decided over the 128 points. -/
theorem act_index : ∀ t : Fin cfg0.N, win0_0.index t 0 = t.val / 16 ∧ win0_0.index t 1 = t.val % 8 :=
  (by decide +kernel : ∀ t : Fin grid0.N, win0_0.index t 0 = t.val / 16 ∧ win0_0.index t 1 = t.val % 8)
theorem wgt_index : ∀ t : Fin cfg0.N, win0_1.index t 0 = t.val / 8 % 2 ∧ win0_1.index t 1 = t.val % 8 :=
  (by decide +kernel : ∀ t : Fin grid0.N, win0_1.index t 0 = t.val / 8 % 2 ∧ win0_1.index t 1 = t.val % 8)
theorem bias_index : ∀ t : Fin cfg0.N, win0_2.index t 0 = 0 ∧ win0_2.index t 1 = t.val / 8 % 2 :=
  (by decide +kernel : ∀ t : Fin grid0.N, win0_2.index t 0 = 0 ∧ win0_2.index t 1 = t.val / 8 % 2)
theorem out_index : ∀ t : Fin cfg0.N, win0_3.index t 0 = t.val / 16 ∧ win0_3.index t 1 = t.val / 8 % 2 :=
  (by decide +kernel : ∀ t : Fin grid0.N, win0_3.index t 0 = t.val / 16 ∧ win0_3.index t 1 = t.val / 8 % 2)

/-- The activation block of point `t` at (p, k): row `1024·i + p`, contraction coordinate `512·k + k'`. -/
theorem actBlk_apply (c : Dev nD) (t : Fin cfg0.N) (p : Fin 1024) (k : Fin 512) :
    actBlk m c t (ix2 p k) = ext2 (actArr m c) (1024 * (t.val / 16) + p.val) (512 * (t.val % 8) + k.val) := by
  have ht := point_lt t
  rw [ext2_of_lt (actArr m c) (by omega) (by omega)]
  show iblk m c 0 t (ix2 p k) = V m c main_v21 _
  unfold iblk
  rw [View.read_apply]
  show V m c main_v21 _ = V m c main_v21 _
  congr 1
  funext a
  apply Fin.ext
  match a with
  | ⟨0, _⟩ => show win0_0.index t 0 * 1024 + 1 * p.val = 1024 * (t.val / 16) + p.val; rw [(act_index t).1]; omega
  | ⟨1, _⟩ => show win0_0.index t 1 * 512 + 1 * k.val = 512 * (t.val % 8) + k.val; rw [(act_index t).2]; omega

/-- The weight block of point `t` at (q, k): row `2048·j + q`, contraction coordinate `512·k + k'`. -/
theorem wgtBlk_apply (c : Dev nD) (t : Fin cfg0.N) (q : Fin 2048) (k : Fin 512) :
    wgtBlk m c t (ix2 q k) = ext2 (wgtArr m c) (2048 * (t.val / 8 % 2) + q.val) (512 * (t.val % 8) + k.val) := by
  have ht := point_lt t
  rw [ext2_of_lt (wgtArr m c) (by omega) (by omega)]
  show iblk m c 1 t (ix2 q k) = V m c main_v19 _
  unfold iblk
  rw [View.read_apply]
  show V m c main_v19 _ = V m c main_v19 _
  congr 1
  funext a
  apply Fin.ext
  match a with
  | ⟨0, _⟩ => show win0_1.index t 0 * 2048 + 1 * q.val = 2048 * (t.val / 8 % 2) + q.val; rw [(wgt_index t).1]; omega
  | ⟨1, _⟩ => show win0_1.index t 1 * 512 + 1 * k.val = 512 * (t.val % 8) + k.val; rw [(wgt_index t).2]; omega

/-- The bias block of point `t` at (0, q): column `2048·j + q` of the one row. -/
theorem biasBlk_apply (c : Dev nD) (t : Fin cfg0.N) (q : Fin 2048) :
    biasBlk m c t (ix2 (0 : Fin 1) q)
      = biasArr m c (ix2 (0 : Fin 1) ⟨2048 * (t.val / 8 % 2) + q.val, by have := point_lt t; omega⟩) := by
  have ht := point_lt t
  show iblk m c 2 t (ix2 (0 : Fin 1) q) = V m c main_v22 _
  unfold iblk
  rw [View.read_apply]
  show V m c main_v22 _ = V m c main_v22 _
  congr 1
  funext a
  apply Fin.ext
  match a with
  | ⟨0, _⟩ => show win0_2.index t 0 * 1 + 1 * 0 = 0; rw [(bias_index t).1]
  | ⟨1, _⟩ => show win0_2.index t 1 * 2048 + 1 * q.val = 2048 * (t.val / 8 % 2) + q.val; rw [(bias_index t).2]; omega

end Cert.KernelIdeal.Acc

end
-- ==== Proof.Accum.lean ====
/-
  The accumulator, point by point.

  Claim (`scratch_after`): after grid point `t = (i, j, k)` the scratch accumulator holds, at (p, q),

      ∑_{s < 512·(k+1)}  act[1024·i + p, s] · wgt[2048·j + q, s]

  — the product of row `1024·i + p` of the activations with row `2048·j + q` of the weights over the contraction
  coordinates of blocks `0 … k`.  Induction on the point: at `k = 0` the body starts from the zero block, which is the
  empty partial sum; at `k > 0` the point before is `(i, j, k − 1)` (same `i` and `j`, because `k` is the fastest
  coordinate and is not 0), and the body adds exactly block `k`'s 512 coordinates (`partialDot_add`).  Only
  associativity of `+` on the extended reals is used; nothing needs the inputs finite.

  Consequence (`out_after`): at `k = 7` the output block is the full 4096-coordinate product plus the bias.
-/
import proofs.«425492_j50079318671750_2_alg».proof.Proof.Pieces
import proofs.«425492_j50079318671750_2_alg».proof.Proof.Payload
import proofs.«425492_j50079318671750_2_alg».proof.Proof.Blocks

noncomputable section

namespace Cert.KernelIdeal.Acc

open Idealize.ShloMosaic Idealize.ShloMosaic.TcCoe Idealize.SL.Sem Idealize.ShloMosaic.ValueIdx
open Cert.KernelIdeal Cert.KernelIdeal.Gen QLinear

variable (m : (ℓ : Loc nD τ sig) → Buf (Elt Ideal) ℓ)

/-- The partial product the accumulator of block (i, j) holds once `L` contraction coordinates are in, at (p, q). -/
abbrev partialAt (c : Dev nD) (n : ℕ) (p : Fin 1024) (q : Fin 2048) (L : ℕ) : EReal :=
  partialDot (actArr m c) (wgtArr m c) (1024 * (n / 16) + p.val) (2048 * (n / 8 % 2) + q.val) L

/-- One accumulation step at point `t`: an accumulator holding the first `512·k` coordinates ends holding the first
    `512·(k+1)`. -/
theorem step_value (c : Dev nD) (t : Fin cfg0.N) (acc : Vec Ideal S1024x2048 .f32) (p : Fin 1024) (q : Fin 2048)
    (hacc : acc (ix2 p q) = partialAt m c t.val p q (512 * (t.val % 8))) :
    k0_pay2 (actBlk m c t) (wgtBlk m c t) acc (ix2 p q) = partialAt m c t.val p q (512 * (t.val % 8 + 1)) := by
  refine (accumulate_apply (actBlk m c t) (wgtBlk m c t) acc p q).trans ?_
  rw [hacc, show 512 * (t.val % 8 + 1) = 512 * (t.val % 8) + 512 from by ring]
  unfold partialAt
  rw [partialDot_add]
  refine congrArg (_ + ·) (Finset.sum_congr rfl fun k _ => ?_)
  rw [actBlk_apply, wgtBlk_apply]

/-- The first point of a run starts from the zero block: the empty partial sum. -/
theorem first_value (c : Dev nD) (t : Fin cfg0.N) (h0 : t.val % 8 = 0) (p : Fin 1024) (q : Fin 2048) :
    k0_pay2 (actBlk m c t) (wgtBlk m c t) (k0_pay1 (F := Ideal)) (ix2 p q) = partialAt m c t.val p q (512 * (t.val % 8 + 1)) :=
  step_value m c t _ p q (by rw [zero_block_apply, h0]; exact (partialDot_zero _ _ _ _).symm)

/-- THE INVARIANT: the accumulator after point `n`. -/
theorem scratch_after (c : Dev nD) : ∀ (n : ℕ) (hn : n < cfg0.N) (p : Fin 1024) (q : Fin 2048),
    (outsAt0 m c n hn).2 (ix2 p q) = partialAt m c n p q (512 * (n % 8 + 1)) := by
  intro n
  induction n with
  | zero =>
    intro hn p q
    rw [outsAt0_A m c ⟨0, hn⟩ (Nat.zero_mod 8) (show ¬(0 % 8 = 7) by decide)]
    dsimp only
    refine (congrFun (scratch_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod 8)) (fun h => (by decide : ¬(0 % 8 = 7)) ((hcond0_1 ⟨0, hn⟩).mp h)) (iblk m c 0 ⟨0, hn⟩) (iblk m c 1 ⟨0, hn⟩) (iblk m c 2 ⟨0, hn⟩)) (ix2 p q)).trans ?_
    exact first_value m c ⟨0, hn⟩ (Nat.zero_mod 8) p q
  | succ n ih =>
    intro hn p q
    have hN : n + 1 < 128 := lt_of_lt_of_eq hn (show cfg0.N = 128 from N_0)
    by_cases h0 : (n + 1) % 8 = 0
    · have h1 : ¬(n + 1) % 8 = 7 := by omega
      rw [outsAt0_A m c ⟨n + 1, hn⟩ h0 h1]
      dsimp only
      refine (congrFun (scratch_first (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩)) (ix2 p q)).trans ?_
      exact first_value m c ⟨n + 1, hn⟩ h0 p q
    · -- the point before has the same (i, j) and the contraction coordinate one less
      have hprev : (outsAt0 m c n (Nat.lt_of_succ_lt hn)).2 (ix2 p q) = partialAt m c (n + 1) p q (512 * ((n + 1) % 8)) := by
        rw [ih (Nat.lt_of_succ_lt hn) p q]
        unfold partialAt
        rw [show n / 16 = (n + 1) / 16 from by omega, show n / 8 % 2 = (n + 1) / 8 % 2 from by omega,
          show n % 8 + 1 = (n + 1) % 8 from by omega]
      by_cases h1 : (n + 1) % 8 = 7
      · rw [outsAt0_C m c ⟨n + 1, hn⟩ h0 h1]
        dsimp only
        refine (congrFun (scratch_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2) (ix2 p q)).trans ?_
        exact step_value m c ⟨n + 1, hn⟩ _ p q hprev
      · rw [outsAt0_B m c ⟨n + 1, hn⟩ h0 h1]
        dsimp only
        refine (congrFun (scratch_mid (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c n (Nat.lt_of_succ_lt hn)).2) (ix2 p q)).trans ?_
        exact step_value m c ⟨n + 1, hn⟩ _ p q hprev

/-- THE OUTPUT BLOCK at the last point of a run (`k = 7`): the whole contraction plus the bias. -/
theorem out_after (c : Dev nD) (t : Fin cfg0.N) (h1 : t.val % 8 = 7) (p : Fin 1024) (q : Fin 2048) :
    (outsAt0 m c t.val t.isLt).1 (ix2 p q)
      = partialAt m c t.val p q 4096 + biasBlk m c t (ix2 (0 : Fin 1) q) := by
  have h0 : ¬t.val % 8 = 0 := by omega
  have hN := point_lt t
  have hpos : t.val - 1 + 1 = t.val := by omega
  rw [outsAt0_C m c t h0 h1]
  dsimp only
  refine (congrFun (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
  refine (add_bias_apply _ (biasBlk m c t) p q).trans ?_
  refine congrArg (· + biasBlk m c t (ix2 (0 : Fin 1) q)) ?_
  have hprev : (outsAt0 m c (t.val - 1) (Nat.lt_of_le_of_lt (Nat.sub_le _ _) t.isLt)).2 (ix2 p q) = partialAt m c t.val p q (512 * (t.val % 8)) := by
    rw [scratch_after m c (t.val - 1) _ p q]
    unfold partialAt
    rw [show (t.val - 1) / 16 = t.val / 16 from by omega, show (t.val - 1) / 8 % 2 = t.val / 8 % 2 from by omega,
      show (t.val - 1) % 8 + 1 = t.val % 8 from by omega]
  refine (step_value m c t _ p q hprev).trans ?_
  rw [h1]

end Cert.KernelIdeal.Acc

end
-- ==== Proof.Result.lean ====
/-
  From the output blocks to the result array.

  The output window is written back only at the last point of each contraction run (`k = 7`), and block (i, j) of the
  [8192, 4096] result then holds, at (p, q), the full product of row `1024·i + p` of the activations with row
  `2048·j + q` of the weights plus bias entry `2048·j + q` (`out_after`).  That is block (i, j) of ONE whole-array
  function, `affine act wgt bias` (= act · wgtᵀ + bias), so:
    · what point `t` writes back is its block of that function (`written_back`);
    · every index (r, n) lies in the block of the point (r / 1024, n / 2048, 7) (`covered`);
    · hence the array ends holding the function (`result_array`).
-/
import proofs.«425492_j50079318671750_2_alg».proof.Proof.Accum
import proofs.«425492_j50079318671750_2_alg».proof.Proof.Gen.KernelIdeal.Frame

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen QLinear

variable (m : (ℓ : Loc nD τ sig) → Buf (Elt Ideal) ℓ)

/-- The [8192, 4096] result the kernel call leaves: activations · weightsᵀ + bias. -/
abbrev callResult (c : Dev nD) : Buf (Elt Ideal) ((c : Thread nD τ).loc main_v23) :=
  affine (actArr m c) (wgtArr m c) (biasArr m c)

/-- WHAT POINT `t` WRITES BACK (it does so only at `k = 7`) is its block of `callResult`. -/
theorem written_back (c : Dev nD) (t : Fin cfg0.N) (hf : (cfg0.win 3).flush t = true) :
    (dats m 0 c).flushed 3 t = ((cfg0.win 3).blk t).view.read (Elt Ideal) (callResult m c) := by
  have h7 : t.val % 8 = 7 := (flush0_3 t).mp hf
  have ht := point_lt t
  show (cfg0.win 3).cut (grid0.coords t) ((dats m 0 c).after 3 t) = _
  rw [after0_3]
  funext y
  have hy0 : (y 0).val < 1024 := Nat.lt_of_lt_of_le (y 0).isLt (win0_3.xsize_le (grid0.coords t) 0)
  have hy1 : (y 1).val < 2048 := Nat.lt_of_lt_of_le (y 1).isLt (win0_3.xsize_le (grid0.coords t) 1)
  have hx : win0_3.xinj (grid0.coords t) y = ix2 (⟨(y 0).val, hy0⟩ : Fin 1024) (⟨(y 1).val, hy1⟩ : Fin 2048) :=
    funext fun a => Fin.ext (by match a with | ⟨0, _⟩ => rfl | ⟨1, _⟩ => rfl)
  show (outsAt0 m c t.val t.isLt).1 (win0_3.xinj (grid0.coords t) y) = _
  rw [hx, out_after m c t h7, biasBlk_apply, View.read_apply]
  show _ = affine (actArr m c) (wgtArr m c) (biasArr m c) (((cfg0.win 3).blk t).view.emb y)
  refine (affine_of_val (actArr m c) (wgtArr m c) (biasArr m c) _ (1024 * (t.val / 16) + (y 0).val)
    (2048 * (t.val / 8 % 2) + (y 1).val) (by omega) ?_ ?_).symm
  · show win0_3.index t 0 * 1024 + 1 * (y 0).val = 1024 * (t.val / 16) + (y 0).val
    rw [(out_index t).1]; omega
  · show win0_3.index t 1 * 2048 + 1 * (y 1).val = 2048 * (t.val / 8 % 2) + (y 1).val
    rw [(out_index t).2]; omega

/-- An index of the result is in point `t`'s block iff each coordinate is in the block's range on its axis. -/
theorem mem_out_block (t : Fin cfg0.N) (i : S8192x4096.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v23).slice (win0_3.rect t)).set ↔ _
  rw [View.set_slice_whole, Rect.mem_set_unit]
  exact Iff.rfl

/-- EVERY index of the result is in the block of some point that writes back. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  let t : Fin cfg0.N := ⟨(i 0).val / 1024 * 16 + (i 1).val / 2048 * 8 + 7, by rw [hN]; omega⟩
  have htv : t.val = (i 0).val / 1024 * 16 + (i 1).val / 2048 * 8 + 7 := rfl
  refine ⟨t, (flush0_3 t).mpr (by rw [htv]; omega), ?_⟩
  rw [mem_out_block]
  intro a
  match a with
  | ⟨0, _⟩ =>
    show win0_3.index t 0 * 1024 ≤ (i 0).val ∧ (i 0).val < win0_3.index t 0 * 1024 + 1024
    rw [(out_index t).1, htv]; omega
  | ⟨1, _⟩ =>
    show win0_3.index t 1 * 2048 ≤ (i 1).val ∧ (i 1).val < win0_3.index t 1 * 2048 + 2048
    rw [(out_index t).2, htv]; omega

/-- THE RESULT ARRAY after the kernel call: activations · weightsᵀ + bias. -/
theorem result_array (c : Dev nD) : (dats m 0 c).arrAt 3 cfg0.N = callResult m c :=
  (dats m 0 c).arrAt_eq_of_cover 3 (callResult m c) (written_back m c) covered

end Cert.KernelIdeal.Acc

end
-- ==== Proof.KernelValue.lean ====
/-
  The whole kernel program: host operations, the kernel call, the final reshape.

  Before the call the host program
    · reshapes the [4, 2048, 4096] activations to [8192, 4096] (row `2048·b + s` is (b, s)) and narrows them to bf16,
    · dequantises the packed weights to a [262144, 64] array, narrows it to bf16 and reshapes it to [4096, 4096],
    · reshapes the [4096] bias to one row [1, 4096];
  after the call it reshapes the [8192, 4096] result back to [4, 2048, 4096].  Over the extended reals a change of
  float format is the identity, so the call's result, read at (b, s, o) of the final array, is

      ∑ₖ x[b, s, k] · Wk[o, k] + bias[o]

  with `Wk` the kernel program's own dequantised weight matrix (`kernelWeights`), kept as one term of the three weight
  arguments.
-/
import proofs.«425492_j50079318671750_2_alg».proof.Proof.Result
import Idealize.ShloMosaic.Lib.StableHlo.Run
import Idealize.ShloMosaic.Lib.ValueLayout

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen QLinear

variable (m : (ℓ : Loc nD τ sig) → Buf (Elt Ideal) ℓ) (ρ : Dev nD → PrngReg)

/-- The activations and the bias as launched, at their literal types. -/
abbrev xArg (c : Dev nD) : S4x2048x4096.Idx → EReal := m ((c : Thread nD τ).loc main_arg0)
abbrev biasArg (c : Dev nD) : S4096.Idx → EReal := m ((c : Thread nD τ).loc main_arg4)

/-! ## The arrays the kernel call finds -/

/-- The activations: the argument reshaped to [8192, 4096] and narrowed. -/
theorem actArr_eq (c : Dev nD) :
    actArr m c = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_v21) = _
  after_results
  rfl

/-- The bias row: the argument reshaped to [1, 4096]. -/
theorem biasArr_eq (c : Dev nD) :
    biasArr m c = shapeCast S1x4096 (m ((c : Thread nD τ).loc main_arg4)) shapeCasts_S4096_S1x4096 := by
  show StableHlo.after hostOps0 (fun b => m (c, b)) (Proc.devRef .tc main_v22) = _
  after_results
  rfl

/-! The dequantised weights as the kernel program computes them, line by line. -/

/-- The low nibble of every packed word, as a float: `word & 15`. -/
def lowNibble (x1 : (⟨S262144x32, .i32⟩ : BufTy).Contents (Elt Ideal)) : FVec Ideal S262144x32 .f32 :=
  sitofp .f32 (andi x1 (broadcastInDim S262144x32 ![] bcast_S_S262144x32 (constantI S_ 32 15#32)))

/-- The high nibble: `(word >> 4) & 15`. -/
def highNibble (x1 : (⟨S262144x32, .i32⟩ : BufTy).Contents (Elt Ideal)) : FVec Ideal S262144x32 .f32 :=
  sitofp .f32 (andi (Host.shrsi x1 (broadcastInDim S262144x32 ![] bcast_S_S262144x32 (constantI S_ 32 4#32)))
    (broadcastInDim S262144x32 ![] bcast_S_S262144x32 (constantI S_ 32 15#32)))

/-- Low and high nibbles interleaved: 64 values per group. -/
def nibbles (x1 : (⟨S262144x32, .i32⟩ : BufTy).Contents (Elt Ideal)) : FVec Ideal S262144x64 .f32 :=
  shapeCast S262144x64 (concatenate S262144x32x2 2
    [⟨S262144x32x1, broadcastInDim S262144x32x1 ![0, 1] bcast_S262144x32_S262144x32x1_0_1 (lowNibble x1)⟩,
     ⟨S262144x32x1, broadcastInDim S262144x32x1 ![0, 1] bcast_S262144x32_S262144x32x1_0_1 (highNibble x1)⟩]
    concatenates_S262144x32x1_S262144x32x1_S262144x32x2_d2) shapeCasts_S262144x32x2_S262144x64

/-- `nibble · scale + zero`, scale and zero per group. -/
def dequantised (x1 : (⟨S262144x32, .i32⟩ : BufTy).Contents (Elt Ideal)) (x2 x3 : (⟨S262144, .f32⟩ : BufTy).Contents (Elt Ideal)) :
    FVec Ideal S262144x64 .f32 :=
  addf (mulf (nibbles x1) (broadcastInDim S262144x64 ![0, 1] bcast_S262144x1_S262144x64_0_1 (broadcastInDim S262144x1 ![0] bcast_S262144_S262144x1_0 x2)))
    (broadcastInDim S262144x64 ![0, 1] bcast_S262144x1_S262144x64_0_1 (broadcastInDim S262144x1 ![0] bcast_S262144_S262144x1_0 x3))

/-- Narrowed to bf16 and laid out as [4096, 4096]. -/
def kernelWeights (x1 : (⟨S262144x32, .i32⟩ : BufTy).Contents (Elt Ideal)) (x2 x3 : (⟨S262144, .f32⟩ : BufTy).Contents (Elt Ideal)) :
    S4096x4096.Idx → EReal :=
  shapeCast S4096x4096 (truncf (F := Ideal) .bf16 (dequantised x1 x2 x3) bitsLt_bf16_f32) shapeCasts_S262144x64_S4096x4096

-- the weight matrix is the result of a chain of 23 host operations, each read back in turn
set_option maxHeartbeats 2000000 in
theorem wgtArr_eq (c : Dev nD) :
    wgtArr m c = kernelWeights (m ((c : Thread nD τ).loc main_arg1)) (m ((c : Thread nD τ).loc main_arg2)) (m ((c : Thread nD τ).loc main_arg3)) := by
  show StableHlo.after hostOps0 (fun b => m (c, b)) (Proc.devRef .tc main_v19) = _
  after_results
  rfl

/-- Row `2048·b + s` of the reshaped activations is (b, s) of the argument. -/
theorem actArr_apply (c : Dev nD) (b : Fin 4) (s : Fin 2048) (k : Fin 4096) :
    actArr m c (ix2 (⟨2048 * b.val + s.val, by omega⟩ : Fin 8192) k) = xArg m c (ix3 b s k) := by
  rw [actArr_eq]
  show shapeCast S8192x4096 (m ((c : Thread nD τ).loc main_arg0)) shapeCasts_S4x2048x4096_S8192x4096 _ = _
  exact shapeCast_apply _ shapeCasts_S4x2048x4096_S8192x4096 _ (ix3 b s k) (by
    rw [Shape.rowMajor_val_three, Shape.rowMajor_val_two]
    show (b.val * 2048 + s.val) * 4096 + k.val = (2048 * b.val + s.val) * 4096 + k.val
    omega)

/-- Entry (0, o) of the bias row is entry o of the argument. -/
theorem biasArr_apply (c : Dev nD) (o : Fin 4096) :
    biasArr m c (ix2 (0 : Fin 1) o) = biasArg m c (ix1 o) := by
  rw [biasArr_eq]
  exact shapeCast_a_1a_apply _ shapeCasts_S4096_S1x4096 0 o

/-! ## The final array -/

/-- What the program returns: the call's result reshaped to [4, 2048, 4096]. -/
abbrev programResult (c : Dev nD) : Buf (Elt Ideal) ((c : Thread nD τ).loc main_v24) :=
  shapeCast S4x2048x4096 (callResult m c) shapeCasts_S8192x4096_S4x2048x4096

/-- The reshape after the call reads the call's result array. -/
theorem tail_value (c : Dev nD) :
    Pipeline.afterTail₀ cfgs (dats m) 0 (V0 m) [hostOps1] c main_v24 = programResult m c := by
  unfold Pipeline.afterTail₀
  show StableHlo.after hostOps1 _ (Proc.devRef .tc main_v24) = _
  after_results
  rw [(Pipeline.withArrays_arr spec0 launch0.win.arr_inj c _ _ 3).trans (result_array m c)]
  rfl

/-- The program's result at (b, s, o). -/
theorem programResult_apply (c : Dev nD) (b : Fin 4) (s : Fin 2048) (o : Fin 4096) :
    programResult m c (ix3 b s o)
      = ∑ k : Fin 4096, xArg m c (ix3 b s k)
            * kernelWeights (m ((c : Thread nD τ).loc main_arg1)) (m ((c : Thread nD τ).loc main_arg2)) (m ((c : Thread nD τ).loc main_arg3)) (ix2 o k)
          + biasArg m c (ix1 o) := by
  have e : programResult m c (ix3 b s o) = callResult m c (ix2 (⟨2048 * b.val + s.val, by omega⟩ : Fin 8192) o) :=
    shapeCast_apply _ shapeCasts_S8192x4096_S4x2048x4096 _ _ (by
      rw [Shape.rowMajor_val_three, Shape.rowMajor_val_two]
      show (2048 * b.val + s.val) * 4096 + o.val = (b.val * 2048 + s.val) * 4096 + o.val
      omega)
  rw [e]
  refine (affine_apply (actArr m c) (wgtArr m c) (biasArr m c) _ o).trans ?_
  rw [biasArr_apply, wgtArr_eq]
  exact congrArg (· + _) (Finset.sum_congr rfl fun k _ => by rw [actArr_apply])

/-! ## The run -/

/-- Every weakly fair execution of the kernel program terminates with its result array at `programResult` and its
    arguments unchanged. -/
theorem kernel_run : θ_run defs (onTc (τ := τ) (main (F := Ideal))) ⟨m, fun _ => 0, ρ⟩ fun r => ∀ c : Dev nD,
      r.2.mem ((c.tc : Thread nD τ).loc main_v24) = programResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v24 (Pipeline.mem_restRefs_of main_v24 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Acc

end
-- ==== Proof.RefRead.lean ====
/-
  The reference's result read at one element.

  The reference dequantises the packed weights to a [4096, 4096] matrix `W` (its buffer `%18`), contracts the last
  axis of the [4, 2048, 4096] activations with the last axis of `W`, and adds the bias along the last axis.  Over the
  extended reals, at (b, s, o):

      result[b, s, o] = ∑ₖ x[b, s, k] · W[o, k] + bias[o]

  `W` is kept as one opaque function of the three weight arguments: the kernel computes the same term, so it is never
  opened.
-/
import proofs.«425492_j50079318671750_2_alg».proof.Proof.Gen.ReferenceIdeal.Run
import proofs.«425492_j50079318671750_2_alg».proof.Proof.Gen.ReferenceIdeal.Read
import Idealize.ShloMosaic.Lib.ValueIdx

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The contraction reads the activations at (b, s, k) … -/
theorem lhs_at (b : Fin 4) (s : Fin 2048) (o k : Fin 4096) : lidx_main_v19 (ix3 b s o) k = ix3 b s k :=
  funext fun a => Fin.ext (by match a with | ⟨0, _⟩ => rfl | ⟨1, _⟩ => rfl | ⟨2, _⟩ => rfl)
/-- … and the weights at (o, k). -/
theorem rhs_at (b : Fin 4) (s : Fin 2048) (o k : Fin 4096) : ridx_main_v19 (ix3 b s o) k = ix2 o k :=
  funext fun a => Fin.ext (by match a with | ⟨0, _⟩ => rfl | ⟨1, _⟩ => rfl)
/-- The bias is broadcast along the last axis. -/
theorem bias_at (b : Fin 4) (s : Fin 2048) (o : Fin 4096) : idx_main_v20 (idx_main_v21 (ix3 b s o)) = ix1 o :=
  funext fun a => Fin.ext (by match a with | ⟨0, _⟩ => rfl)

/-- The reference at (b, s, o). -/
theorem reference_apply (x0 : (⟨S4x2048x4096, .f32⟩ : BufTy).Contents (Elt Ideal)) (x1 : (⟨S262144x32, .i32⟩ : BufTy).Contents (Elt Ideal))
    (x2 x3 : (⟨S262144, .f32⟩ : BufTy).Contents (Elt Ideal)) (x4 : (⟨S4096, .f32⟩ : BufTy).Contents (Elt Ideal))
    (b : Fin 4) (s : Fin 2048) (o : Fin 4096) :
    val_main_v22 (F := Ideal) x0 x1 x2 x3 x4 (ix3 b s o)
      = ∑ k : Fin 4096, x0 (ix3 b s k) * val_main_v18 (F := Ideal) x1 x2 x3 (ix2 o k) + x4 (ix1 o) := by
  rw [val_main_v22_apply, val_main_v19_apply, val_main_v21_apply, val_main_v20_apply, bias_at]
  simp only [lhs_at, rhs_at]
  rfl

end Cert.ReferenceIdeal.RefValue

end
-- ==== Proof.lean ====
/-
  A quantised linear layer: the kernel program and its jnp reference compute the same array over the extended reals.

  Both programs dequantise the 4-bit packed weights with the same operations (low and high nibbles interleaved,
  `nibble · scale + zero` per group of 64) to a [4096, 4096] matrix `W`; the kernel program narrows `W` and the
  activations to bf16, which over the extended reals changes nothing.  The reference then computes, at (b, s, o),

      ∑_{k < 4096} x[b, s, k] · W[o, k] + bias[o]

  in one contraction.  The kernel tiles the [8192, 4096] product into 8 × 2 output blocks and, for each, walks the
  contraction axis in 8 blocks of 512, adding each block's partial product into an accumulator that starts at zero,
  and adds the bias after the last block.  The accumulator after block `k` is the partial sum over the first
  `512·(k+1)` contraction coordinates (Proof/Accum.lean), so after the last block it is the whole sum: the two results
  differ only in how one finite sum is bracketed, and addition on the extended reals is associative and commutative
  with `0` neutral.  No cancellation or distributivity is used, so finiteness of the inputs plays no part.

  The three frames: the kernel programs' are the generated frame proofs; the reference's is its generated run with the
  result dropped.  The idealisation rewrote nothing, so `preserves` is trivial.
-/
import proofs.«425492_j50079318671750_2_alg».proof.Defs
import proofs.«425492_j50079318671750_2_alg».proof.Proof.Gen.Kernel.Frame
import proofs.«425492_j50079318671750_2_alg».proof.Proof.Gen.KernelIdeal.Frame
import proofs.«425492_j50079318671750_2_alg».proof.Proof.Gen.ReferenceIdeal
import proofs.«425492_j50079318671750_2_alg».proof.Proof.Gen.Pre_finite_inputs
import proofs.«425492_j50079318671750_2_alg».proof.Proof.KernelValue
import proofs.«425492_j50079318671750_2_alg».proof.Proof.RefRead

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs' dequantised weight matrices are one function of the three weight arguments: the same operations
    in the same order, the kernel program's extra narrowing to bf16 the identity on extended reals. -/
theorem weights_eq (x1 : (⟨Cert.KernelIdeal.S262144x32, .i32⟩ : BufTy).Contents (Elt Ideal))
    (x2 x3 : (⟨Cert.KernelIdeal.S262144, .f32⟩ : BufTy).Contents (Elt Ideal)) :
    Cert.KernelIdeal.Acc.kernelWeights x1 x2 x3 = Cert.ReferenceIdeal.Read.val_main_v18 (F := Ideal) x1 x2 x3 := rfl

/-- From arguments that agree both programs end with the same [4, 2048, 4096] array: at (b, s, o) both hold
    `∑ₖ x[b, s, k] · W[o, k] + bias[o]`. -/
theorem algebraic : Cert.algebraic_KernelIdeal_ReferenceIdeal := by
  intro m ρ m' ρ' _ hagree
  refine ⟨fun c => Cert.KernelIdeal.Acc.programResult m c, Cert.KernelIdeal.Acc.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v22_eq _ _ _ _ _).trans ?_
  funext i
  obtain ⟨b, s, o, rfl⟩ : ∃ (b : Fin 4) (s : Fin 2048) (o : Fin 4096), i = ix3 b s o := ⟨i 0, i 1, i 2, eq_ix3 i⟩
  rw [Cert.ReferenceIdeal.RefValue.reference_apply]
  refine Eq.trans ?_ (Cert.KernelIdeal.Acc.programResult_apply m c b s o).symm
  rw [weights_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
